-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 97
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S16384x4096, .bf16⟩
  | .hbm, ⟨58, _⟩ => ⟨S4096x4096, .bf16⟩
  | .hbm, ⟨59, _⟩ => ⟨S16384x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .f32⟩
  | .hbm, ⟨79, _⟩ => ⟨S16384x4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16384x4096, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S1x4096, .f32⟩
  | .hbm, ⟨92, _⟩ => ⟨S1x4096, .f32⟩
  | .hbm, ⟨93, _⟩ => ⟨S16384x4096, .f32⟩
  | .hbm, ⟨94, _⟩ => ⟨S16384x4096, .f32⟩
  | .hbm, ⟨95, _⟩ => ⟨S16384x4096, .f32⟩
  | .hbm, ⟨96, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_cst_7 : Ref sig .tc := ⟨.hbm, 30, rfl⟩
abbrev main_v14 : Ref sig .tc := ⟨.hbm, 31, rfl⟩
abbrev main_v15 : Ref sig .tc := ⟨.hbm, 32, rfl⟩
abbrev main_cst_8 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_cst_10 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_cst_14 : Ref sig .tc := ⟨.hbm, 66, rfl⟩
abbrev main_v38 : Ref sig .tc := ⟨.hbm, 67, rfl⟩
abbrev main_v39 : Ref sig .tc := ⟨.hbm, 68, rfl⟩
abbrev main_cst_15 : Ref sig .tc := ⟨.hbm, 69, rfl⟩
abbrev main_v40 : Ref sig .tc := ⟨.hbm, 70, rfl⟩
abbrev main_v41 : Ref sig .tc := ⟨.hbm, 71, rfl⟩
abbrev main_cst_16 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_17 : Ref sig .tc := ⟨.hbm, 80, rfl⟩
abbrev main_cst_18 : Ref sig .tc := ⟨.hbm, 81, rfl⟩
abbrev main_call8_v0 : Ref sig .tc := ⟨.hbm, 82, rfl⟩
abbrev main_call8_v1 : Ref sig .tc := ⟨.hbm, 83, rfl⟩
abbrev main_call8_v2 : Ref sig .tc := ⟨.hbm, 84, rfl⟩
abbrev main_call8_v3 : Ref sig .tc := ⟨.hbm, 85, rfl⟩
abbrev main_call8_v4 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S16384x4096_S_d0_1 : S16384x4096.ReducesTo [0, 1] S_
  bcast_S_S16384x4096 : S_.BroadcastsInDim S16384x4096 (![] : Fin 0 → Fin S16384x4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bcast_S1x4096_S16384x4096_0_1 : S1x4096.BroadcastsInDim S16384x4096 (![0, 1] : Fin 2 → Fin S16384x4096.rank)
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v32) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 97
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S16384x4096, .f32⟩
  | .hbm, ⟨59, _⟩ => ⟨S16384x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .f32⟩
  | .hbm, ⟨79, _⟩ => ⟨S16384x4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16384x4096, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S1x4096, .f32⟩
  | .hbm, ⟨92, _⟩ => ⟨S1x4096, .f32⟩
  | .hbm, ⟨93, _⟩ => ⟨S16384x4096, .f32⟩
  | .hbm, ⟨94, _⟩ => ⟨S16384x4096, .f32⟩
  | .hbm, ⟨95, _⟩ => ⟨S16384x4096, .f32⟩
  | .hbm, ⟨96, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_cst_7 : Ref sig .tc := ⟨.hbm, 30, rfl⟩
abbrev main_v14 : Ref sig .tc := ⟨.hbm, 31, rfl⟩
abbrev main_v15 : Ref sig .tc := ⟨.hbm, 32, rfl⟩
abbrev main_cst_8 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_cst_10 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_cst_14 : Ref sig .tc := ⟨.hbm, 66, rfl⟩
abbrev main_v38 : Ref sig .tc := ⟨.hbm, 67, rfl⟩
abbrev main_v39 : Ref sig .tc := ⟨.hbm, 68, rfl⟩
abbrev main_cst_15 : Ref sig .tc := ⟨.hbm, 69, rfl⟩
abbrev main_v40 : Ref sig .tc := ⟨.hbm, 70, rfl⟩
abbrev main_v41 : Ref sig .tc := ⟨.hbm, 71, rfl⟩
abbrev main_cst_16 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_17 : Ref sig .tc := ⟨.hbm, 80, rfl⟩
abbrev main_cst_18 : Ref sig .tc := ⟨.hbm, 81, rfl⟩
abbrev main_call8_v0 : Ref sig .tc := ⟨.hbm, 82, rfl⟩
abbrev main_call8_v1 : Ref sig .tc := ⟨.hbm, 83, rfl⟩
abbrev main_call8_v2 : Ref sig .tc := ⟨.hbm, 84, rfl⟩
abbrev main_call8_v3 : Ref sig .tc := ⟨.hbm, 85, rfl⟩
abbrev main_call8_v4 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S16384x4096_S_d0_1 : S16384x4096.ReducesTo [0, 1] S_
  bcast_S_S16384x4096 : S_.BroadcastsInDim S16384x4096 (![] : Fin 0 → Fin S16384x4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Requant.lean ====
/-
  The requantization both programs end with, as one function of the accumulator array, the per-channel weight scales
  and the activation scale: the accumulator's smallest and largest entries (each against zero) give a step
  `(hi - lo) / 255` and a zero point `round(-128 - lo / step)`; every entry is divided by the step, rounded, shifted by
  the zero point and clipped to `[-128, 127]`; the zero point is taken off again and the result is multiplied, column
  by column, by `activation scale · weight scale · step`.
-/
import Idealize.ShloMosaic.PureOps.Ideal

noncomputable section

namespace Cert.Requant

open Idealize.ShloMosaic

abbrev SAcc : Shape := ⟨2, ![16384, 4096]⟩
abbrev SChan : Shape := ⟨1, ![4096]⟩
abbrev SOne : Shape := ⟨0, ![]⟩
abbrev SRow : Shape := ⟨2, ![1, 4096]⟩

theorem redAll : SAcc.ReducesTo [0, 1] SOne := by decide
theorem onePos : 0 < SOne.numel := by decide
theorem bOneAcc : SOne.BroadcastsInDim SAcc (![] : Fin 0 → Fin SAcc.rank) := by decide
theorem bOneRow : SOne.BroadcastsInDim SRow (![] : Fin 0 → Fin SRow.rank) := by decide
theorem bChanRow : SChan.BroadcastsInDim SRow (![1] : Fin 1 → Fin SRow.rank) := by decide
theorem bRowAcc : SRow.BroadcastsInDim SAcc (![0, 1] : Fin 2 → Fin SAcc.rank) := by decide

variable {F : FTy → Type} [FloatOps F]

/-- The requantized and rescaled output, from the accumulator `r`, the weight scales `w` and the activation scale `s`. -/
def tail (r : (⟨SAcc, .f32⟩ : BufTy).Contents (Elt F)) (w : (⟨SChan, .f32⟩ : BufTy).Contents (Elt F))
    (s : (⟨SOne, .f32⟩ : BufTy).Contents (Elt F)) : (⟨SAcc, .f32⟩ : BufTy).Contents (Elt F) :=
  let lo : (⟨SOne, .f32⟩ : BufTy).Contents (Elt F) :=
    minimumf (Host.reduce FloatOps.minimumf r (constant SOne .f32 0x7F800000#32) redAll onePos) (constant SOne .f32 0x00000000#32)
  let hi : (⟨SOne, .f32⟩ : BufTy).Contents (Elt F) :=
    maximumf (Host.reduce FloatOps.maximumf r (constant SOne .f32 0xFF800000#32) redAll onePos) (constant SOne .f32 0x00000000#32)
  let step : (⟨SOne, .f32⟩ : BufTy).Contents (Elt F) := Host.divf (subf hi lo) (constant SOne .f32 0x437F0000#32)
  let zp : (⟨SOne, .f32⟩ : BufTy).Contents (Elt F) := Host.roundeven (subf (constant SOne .f32 0xC3000000#32) (Host.divf lo step))
  let q : (⟨SAcc, .f32⟩ : BufTy).Contents (Elt F) :=
    minimumf (broadcastInDim SAcc ![] bOneAcc (id (constant SOne .f32 0x42FE0000#32)))
      (maximumf (broadcastInDim SAcc ![] bOneAcc (id (constant SOne .f32 0xC3000000#32)))
        (addf (Host.roundeven (Host.divf r (broadcastInDim SAcc ![] bOneAcc step))) (broadcastInDim SAcc ![] bOneAcc zp)))
  let scale : (⟨SRow, .f32⟩ : BufTy).Contents (Elt F) :=
    mulf (mulf (broadcastInDim SRow ![] bOneRow s) (broadcastInDim SRow ![1] bChanRow w)) (broadcastInDim SRow ![] bOneRow step)
  mulf (subf q (broadcastInDim SAcc ![] bOneAcc zp)) (broadcastInDim SAcc ![0, 1] bRowAcc scale)

end Cert.Requant

end
-- ==== Proof.KernelHostHead.lean ====
/-
  The host lines before the blocked product, read as values: the per-channel weight scales, the activation scale, the
  shifted quantized activations, the quantized weights and the requantized bias are the same functions of the three
  inputs as in the reference (the change of format to bf16 in front of the product is the only extra step).
-/
import proofs.«156082_j16578573762822_1_alg».proof.Proof.Gen.KernelIdeal.Frame
import proofs.«156082_j16578573762822_1_alg».proof.Proof.Gen.ReferenceIdeal.Read
import proofs.«156082_j16578573762822_1_alg».proof.Proof.Requant
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]
variable (m : (ℓ : Loc nD τ sig) → Buf (Elt F) ℓ)

set_option maxRecDepth 8192 in
set_option maxHeartbeats 8000000 in
/-- The weight scales the product's surroundings use are the reference's. -/
theorem head_wscale (c : Dev nD) :
    (V m c main_v3 : (⟨S4096, .f32⟩ : BufTy).Contents (Elt F))
      = Cert.ReferenceIdeal.Read.val_main_v3 (F := F) (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 8192 in
set_option maxHeartbeats 8000000 in
/-- The activation scale is the reference's. -/
theorem head_ascale (c : Dev nD) :
    (V m c main_v14 : (⟨S_, .f32⟩ : BufTy).Contents (Elt F))
      = Cert.ReferenceIdeal.Read.val_main_v14 (F := F) (m ((c : Thread nD τ).loc main_arg0)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 8192 in
set_option maxHeartbeats 8000000 in
/-- The product's left operand is the reference's shifted quantized activations, changed to bf16. -/
theorem head_lhs (c : Dev nD) :
    (V m c main_v32 : (⟨S16384x4096, .bf16⟩ : BufTy).Contents (Elt F))
      = truncf .bf16 (Cert.ReferenceIdeal.Read.val_main_v25 (F := F) (m ((c : Thread nD τ).loc main_arg0))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 8192 in
set_option maxHeartbeats 8000000 in
/-- The product's right operand is the reference's quantized weights, changed to bf16. -/
theorem head_rhs (c : Dev nD) :
    (V m c main_v33 : (⟨S4096x4096, .bf16⟩ : BufTy).Contents (Elt F))
      = truncf .bf16 (Cert.ReferenceIdeal.Read.val_main_v8 (F := F) (m ((c : Thread nD τ).loc main_arg1))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 8192 in
set_option maxHeartbeats 8000000 in
/-- The bias row the product adds is the reference's requantized bias. -/
theorem head_bias (c : Dev nD) :
    (V m c main_v31 : (⟨S1x4096, .f32⟩ : BufTy).Contents (Elt F))
      = Cert.ReferenceIdeal.Read.val_main_v32 (F := F) (m ((c : Thread nD τ).loc main_arg0)) (m ((c : Thread nD τ).loc main_arg1)) (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.KernelIdeal.Host

end
-- ==== Proof.KernelHostTail.lean ====
/-
  The host lines after the blocked product, read as a value: the program's result is the shared requantization of the
  product's output array, with the weight scales and the activation scale computed before the product.
-/
import proofs.«156082_j16578573762822_1_alg».proof.Proof.Gen.KernelIdeal.Frame
import proofs.«156082_j16578573762822_1_alg».proof.Proof.Gen.ReferenceIdeal.Read
import proofs.«156082_j16578573762822_1_alg».proof.Proof.Requant
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]
variable (m : (ℓ : Loc nD τ sig) → Buf (Elt F) ℓ)

set_option maxRecDepth 8192 in
set_option maxHeartbeats 8000000 in
/-- The lines after the product requantize its output array. -/
theorem tail_eq (c : Dev nD) :
    Pipeline.afterTail₀ cfgs (dats m) 0 (V0 m) [hostOps1, hostOps1_1, hostOps1_2, hostOps1_3, hostOps1_4, hostOps1_5, hostOps1_6] c main_v58
      = Cert.Requant.tail (F := F) ((dats m 0 c).arrAt 3 cfg0.N) (V m c main_v3) (V m c main_v14) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  have h34 : Pipeline.withArrays (cfgs 0).spec c (V0 m c) (fun w => (dats m 0 c).arrAt w (cfgs 0).N) (Proc.devRef .tc main_v34)
      = (dats m 0 c).arrAt 3 cfg0.N :=
    Pipeline.withArrays_arr spec0 launch0.win.arr_inj c (V0 m c) (fun w => (dats m 0 c).arrAt w cfg0.N) 3
  have h3 : Pipeline.withArrays (cfgs 0).spec c (V0 m c) (fun w => (dats m 0 c).arrAt w (cfgs 0).N) (Proc.devRef .tc main_v3)
      = V0 m c (Proc.devRef .tc main_v3) :=
    Pipeline.withArrays_of_ne spec0 c (V0 m c) _ main_v3 (by exact (by decide : ∀ w, Pipeline.arrRef spec0 w ≠ main_v3))
  have h14 : Pipeline.withArrays (cfgs 0).spec c (V0 m c) (fun w => (dats m 0 c).arrAt w (cfgs 0).N) (Proc.devRef .tc main_v14)
      = V0 m c (Proc.devRef .tc main_v14) :=
    Pipeline.withArrays_of_ne spec0 c (V0 m c) _ main_v14 (by exact (by decide : ∀ w, Pipeline.arrRef spec0 w ≠ main_v14))
  rw [h34, h3, h14]
  rfl

end Cert.KernelIdeal.Host

end
-- ==== Proof.KernelPieces.lean ====
/-
  What one grid point of the blocked product leaves behind, as values. The body keeps a running total in a scratch
  block: at the first stretch of the contracted axis it starts the total at zero and adds the product of the two
  operand blocks; at the later stretches it adds the product of the blocks to the total it found; at the last
  stretch it also writes the total plus the bias row, laid along the rows, into the result block.
-/
import proofs.«156082_j16578573762822_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first stretch: the total is started at the zero block, then the product of the two blocks is added. -/
theorem total_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle stretch: the total found, plus the product of the two blocks. -/
theorem total_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last stretch: the total found, plus the product of the two blocks. -/
theorem total_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- The last stretch also writes the result block: the finished total plus the bias row laid along the rows. -/
theorem result_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.readCov_unit_zero (S := S1024x1024) _ hz, View.ld_unit_zero (S := S1024x1024) hz,
    View.ld_unit_zero (S := S1x1024) hz]

end Cert.KernelIdeal.Pieces

end
-- ==== Proof.KernelValue.lean ====
/-
  The body's three stored values read at one entry, over the extended reals. The zero block is zero everywhere; the
  updated total at `(p, q)` is the total found there plus the inner product, over the 1024 positions of the stretch, of
  row `p` of the left block with row `q` of the right block (both operands carry the contracted axis last); the result
  block at `(p, q)` is the total plus entry `q` of the bias row.
-/
import proofs.«156082_j16578573762822_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.PayValue

open Cert.KernelIdeal Cert.KernelIdeal.Gen

/-- The left operand is read at the entry's row, -/
theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contracted position; -/
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand at the row the entry's COLUMN names, -/
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contracted position. -/
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks into zeros, at `(p, q)`: the inner product of row `p` of the left with row `q` of the right. -/
theorem block_product (x0 x1 : FVec Ideal S1024x1024 .bf16) (p q : Fin 1024) :
    matmul dot_S1024x1024_S1024x1024_S1024x1024_1_1_0_0_n_n none x0 x1 (constant (F := Ideal) S1024x1024 .f32 0x00000000#32) (ix2 p q)
      = ∑ l : Fin 1024, x0 (ix2 p l) * x1 (ix2 q l) := by
  refine (Ideal.matmul_constant_zero_apply dot_S1024x1024_S1024x1024_S1024x1024_1_1_0_0_n_n none x0 x1 (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The zero block. -/
theorem zero_apply (p q : Fin 1024) : k0_pay1 (F := Ideal) (ix2 p q) = (0 : EReal) := by
  unfold k0_pay1
  rw [shapeCast_self]
  exact Ideal.ofBits_zero_f32

/-- The updated total. -/
theorem total_apply (acc : Vec Ideal S1024x1024 .f32) (x0 x1 : Vec Ideal S1024x1024 .bf16) (p q : Fin 1024) :
    k0_pay2 acc x0 x1 (ix2 p q) = acc (ix2 p q) + ∑ l : Fin 1024, x0 (ix2 p l) * x1 (ix2 q l) := by
  unfold k0_pay2
  simp only [shapeCast_self]
  exact congrArg (acc (ix2 p q) + ·) (block_product x0 x1 p q)

/-- The result block. -/
theorem result_apply (acc : Vec Ideal S1024x1024 .f32) (b : Vec Ideal S1x1024 .f32) (p q : Fin 1024) :
    k0_pay3 acc b (ix2 p q) = acc (ix2 p q) + b (ix2 (0 : Fin 1) q) := by
  unfold k0_pay3
  simp only [shapeCast_self]
  exact congrArg (acc (ix2 p q) + ·) (broadcastTo_1b_ab_apply _ _ p q)

end Cert.KernelIdeal.PayValue

end
-- ==== Proof.BlockedDot.lean ====
/-
  A row-by-row inner product of length 4096 taken in four consecutive stretches of 1024, each stretch added to a
  running total that starts at zero: over the extended reals the running total after the fourth stretch is the whole
  inner product, because addition there is associative and commutative with neutral element zero.
-/
import Mathlib.Data.EReal.Basic
import Mathlib.Algebra.BigOperators.Fin
import Mathlib.Algebra.BigOperators.Ring.Finset
import Mathlib.Logic.Equiv.Fin.Basic

noncomputable section

open scoped BigOperators

namespace Cert.BlockedDot

/-- Position `l` of stretch `k` on the contracted axis. -/
abbrev pos (k : Fin 4) (l : Fin 1024) : Fin 4096 := ⟨1024 * k.val + l.val, by have := k.isLt; have := l.isLt; omega⟩

/-- A sum over the 4096 positions is the sum over the four stretches of the sums inside each stretch. -/
theorem sum_stretches {M : Type} [AddCommMonoid M] (f : Fin 4096 → M) :
    ∑ x : Fin 4096, f x = ∑ k : Fin 4, ∑ l : Fin 1024, f (pos k l) := by
  rw [← Fintype.sum_prod_type']
  refine (Fintype.sum_equiv (finProdFinEquiv (m := 4) (n := 1024)) (fun kl => f (pos kl.1 kl.2)) f (fun kl => ?_)).symm
  refine congrArg f (Fin.ext ?_)
  show 1024 * kl.1.val + kl.2.val = kl.2.val + 1024 * kl.1.val
  omega

/-- The running total of the four stretches, started at zero, is the whole sum. -/
theorem running_total {M : Type} [AddCommMonoid M] (f : Fin 4096 → M) :
    (((0 + ∑ l : Fin 1024, f (pos 0 l)) + ∑ l : Fin 1024, f (pos 1 l)) + ∑ l : Fin 1024, f (pos 2 l))
      + ∑ l : Fin 1024, f (pos 3 l) = ∑ x : Fin 4096, f x := by
  rw [sum_stretches, Fin.sum_univ_four, zero_add]

end Cert.BlockedDot

end
-- ==== Proof.KernelBlocks.lean ====
/-
  The blocked product over the grid. The grid runs over row blocks, column blocks and, fastest, the four stretches of
  the contracted axis; the scratch block carries the running total from one stretch to the next, so after the fourth
  stretch of a (row block, column block) pair the result block holds, at `(p, q)`,
  `((((0 + s₀) + s₁) + s₂) + s₃) + bias q`, where `sₖ` is the inner product over stretch `k` of row `p` of the left
  block with row `q` of the right block. Read through the windows these are entries of the three operand arrays, and
  the result blocks tile the output array.
-/
import proofs.«156082_j16578573762822_1_alg».proof.Proof.Gen.KernelIdeal.Frame
import proofs.«156082_j16578573762822_1_alg».proof.Proof.KernelPieces
import proofs.«156082_j16578573762822_1_alg».proof.Proof.KernelValue
import proofs.«156082_j16578573762822_1_alg».proof.Proof.BlockedDot
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pieces Cert.KernelIdeal.PayValue Cert.BlockedDot

section anyF

variable {F : FTy → Type} [FloatOps F]
variable (m : (ℓ : Loc nD τ sig) → Buf (Elt F) ℓ)

/-- The grid point before `t`. -/
def prev (t : Fin cfg0.N) : Fin cfg0.N := ⟨t.val - 1, Nat.lt_of_le_of_lt (Nat.sub_le _ _) t.isLt⟩

theorem prev_val (t : Fin cfg0.N) : (prev t).val = t.val - 1 := rfl

/-- The left, right and bias blocks the windows hold at point `t`, and the running total the scratch holds after it. -/
abbrev lhsBlk (c : Dev nD) (t : Fin cfg0.N) : Vec F S1024x1024 .bf16 := iblk m c 0 t
abbrev rhsBlk (c : Dev nD) (t : Fin cfg0.N) : Vec F S1024x1024 .bf16 := iblk m c 1 t
abbrev biasBlk (c : Dev nD) (t : Fin cfg0.N) : Vec F S1x1024 .f32 := iblk m c 2 t
abbrev total (c : Dev nD) (t : Fin cfg0.N) : Vec F S1024x1024 .f32 := (outsAt0 m c t.val t.isLt).2

/-- At a first stretch the total is started afresh. -/
theorem total_first (c : Dev nD) (t : Fin cfg0.N) (h0 : t.val % 4 = 0) :
    total m c t = k0_pay2 (k0_pay1 (F := F)) (lhsBlk m c t) (rhsBlk m c t) := by
  have h1 : ¬t.val % 4 = 3 := by omega
  show (outsAt0 m c t.val t.isLt).2 = _
  rw [outsAt0_A m c t h0 h1]
  dsimp only
  exact total_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every other stretch it continues the total of the point before. -/
theorem total_next (c : Dev nD) (t : Fin cfg0.N) (h0 : ¬t.val % 4 = 0) :
    total m c t = k0_pay2 (total m c (prev t)) (lhsBlk m c t) (rhsBlk m c t) := by
  show (outsAt0 m c t.val t.isLt).2 = _
  by_cases h1 : t.val % 4 = 3
  · rw [outsAt0_C m c t h0 h1]
    dsimp only
    exact total_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact total_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a last stretch the result block is the finished total plus the bias row. -/
theorem result_last (c : Dev nD) (t : Fin cfg0.N) (h1 : t.val % 4 = 3) :
    (outsAt0 m c t.val t.isLt).1 = k0_pay3 (k0_pay2 (total m c (prev t)) (lhsBlk m c t) (rhsBlk m c t)) (biasBlk m c t) := by
  have h0 : ¬t.val % 4 = 0 := by omega
  rw [outsAt0_C m c t h0 h1]
  dsimp only
  exact result_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- So the result block written at a last stretch is four updates of a fresh total, then the bias. -/
theorem result_four (c : Dev nD) (t : Fin cfg0.N) (h1 : t.val % 4 = 3) :
    (outsAt0 m c t.val t.isLt).1
      = k0_pay3 (k0_pay2 (k0_pay2 (k0_pay2 (k0_pay2 (k0_pay1 (F := F))
          (lhsBlk m c (prev (prev (prev t)))) (rhsBlk m c (prev (prev (prev t)))))
          (lhsBlk m c (prev (prev t))) (rhsBlk m c (prev (prev t))))
          (lhsBlk m c (prev t)) (rhsBlk m c (prev t)))
          (lhsBlk m c t) (rhsBlk m c t)) (biasBlk m c t) := by
  have e1 : (prev t).val = t.val - 1 := rfl
  have e2 : (prev (prev t)).val = t.val - 1 - 1 := rfl
  have e3 : (prev (prev (prev t))).val = t.val - 1 - 1 - 1 := rfl
  rw [result_last m c t h1, total_next m c (prev t) (by omega), total_next m c (prev (prev t)) (by omega),
    total_first m c (prev (prev (prev t))) (by omega)]

end anyF

section ideal

variable (m : (ℓ : Loc nD τ sig) → Buf (Elt Ideal) ℓ)

/-- The three operand arrays as the product finds them, over the extended reals. -/
abbrev lhsArr (c : Dev nD) : S16384x4096.Idx → EReal := V m c main_v32
abbrev rhsArr (c : Dev nD) : S4096x4096.Idx → EReal := V m c main_v33
abbrev biasArr (c : Dev nD) : S1x4096.Idx → EReal := V m c main_v31

/-- Entry `(r, o)` of the accumulator the grid leaves: the four stretch sums added in order to zero, then the bias. -/
def accAt (a : S16384x4096.Idx → EReal) (b : S4096x4096.Idx → EReal) (bias : S1x4096.Idx → EReal)
    (r : Fin 16384) (o : Fin 4096) : EReal :=
  ((((0 + ∑ l : Fin 1024, a (ix2 r (pos 0 l)) * b (ix2 o (pos 0 l)))
      + ∑ l : Fin 1024, a (ix2 r (pos 1 l)) * b (ix2 o (pos 1 l)))
      + ∑ l : Fin 1024, a (ix2 r (pos 2 l)) * b (ix2 o (pos 2 l)))
      + ∑ l : Fin 1024, a (ix2 r (pos 3 l)) * b (ix2 o (pos 3 l)))
    + bias (ix2 (0 : Fin 1) o)

/-- The whole accumulator array. -/
def acc (a : S16384x4096.Idx → EReal) (b : S4096x4096.Idx → EReal) (bias : S1x4096.Idx → EReal) :
    S16384x4096.Idx → EReal :=
  fun i => accAt a b bias ⟨(i 0).val, (i 0).isLt⟩ ⟨(i 1).val, (i 1).isLt⟩

/-- Where each window's block sits at point `t`: the row block is `t / 16`, the column block `t / 4 % 4`, the stretch
    `t % 4` (decided over the 256 points). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left block's entry `(p, l)` is the left array's entry in row block `t / 16`, stretch `t % 4`. -/
theorem lhsBlk_apply (c : Dev nD) (t : Fin cfg0.N) (p l : Fin 1024) (r : Fin 16384) (x : Fin 4096)
    (hr : r.val = t.val / 16 * 1024 + p.val) (hx : x.val = t.val % 4 * 1024 + l.val) :
    lhsBlk m c t (ix2 p l) = lhsArr m c (ix2 r x) := by
  obtain ⟨e0, e1, -⟩ := idx_facts t
  show iblk m c 0 t (ix2 p l) = V m c main_v32 (ix2 r x)
  unfold iblk
  rw [View.read_apply]
  show V m c main_v32 _ = V m c main_v32 _
  congr 1
  funext a
  apply Fin.ext
  match a with
  | ⟨0, _⟩ => show win0_0.index t (0 : Fin 2) * 1024 + 1 * p.val = r.val; omega
  | ⟨1, _⟩ => show win0_0.index t (1 : Fin 2) * 1024 + 1 * l.val = x.val; omega

/-- The right block's entry `(q, l)` is the right array's entry in row block `t / 4 % 4`, stretch `t % 4`. -/
theorem rhsBlk_apply (c : Dev nD) (t : Fin cfg0.N) (q l : Fin 1024) (o : Fin 4096) (x : Fin 4096)
    (ho : o.val = t.val / 4 % 4 * 1024 + q.val) (hx : x.val = t.val % 4 * 1024 + l.val) :
    rhsBlk m c t (ix2 q l) = rhsArr m c (ix2 o x) := by
  obtain ⟨-, -, e2, e3, -⟩ := idx_facts t
  show iblk m c 1 t (ix2 q l) = V m c main_v33 (ix2 o x)
  unfold iblk
  rw [View.read_apply]
  show V m c main_v33 _ = V m c main_v33 _
  congr 1
  funext a
  apply Fin.ext
  match a with
  | ⟨0, _⟩ => show win0_1.index t (0 : Fin 2) * 1024 + 1 * q.val = o.val; omega
  | ⟨1, _⟩ => show win0_1.index t (1 : Fin 2) * 1024 + 1 * l.val = x.val; omega

/-- The bias block's entry `q` is the bias row's entry in column block `t / 4 % 4`. -/
theorem biasBlk_apply (c : Dev nD) (t : Fin cfg0.N) (q : Fin 1024) (o : Fin 4096)
    (ho : o.val = t.val / 4 % 4 * 1024 + q.val) :
    biasBlk m c t (ix2 (0 : Fin 1) q) = biasArr m c (ix2 (0 : Fin 1) o) := by
  obtain ⟨-, -, -, -, e4, e5, -⟩ := idx_facts t
  show iblk m c 2 t (ix2 (0 : Fin 1) q) = V m c main_v31 (ix2 (0 : Fin 1) o)
  unfold iblk
  rw [View.read_apply]
  show V m c main_v31 _ = V m c main_v31 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = o.val; omega

/-- One stretch's inner product of the blocks is that stretch's inner product of the arrays' rows. -/
theorem stretch_sum (c : Dev nD) (t : Fin cfg0.N) (k : Fin 4) (hk : t.val % 4 = k.val) (p q : Fin 1024)
    (r : Fin 16384) (o : Fin 4096) (hr : r.val = t.val / 16 * 1024 + p.val) (ho : o.val = t.val / 4 % 4 * 1024 + q.val) :
    ∑ l : Fin 1024, lhsBlk m c t (ix2 p l) * rhsBlk m c t (ix2 q l)
      = ∑ l : Fin 1024, lhsArr m c (ix2 r (pos k l)) * rhsArr m c (ix2 o (pos k l)) :=
  Finset.sum_congr rfl fun l _ => by
    rw [lhsBlk_apply m c t p l r (pos k l) hr (by show 1024 * k.val + l.val = _; omega),
      rhsBlk_apply m c t q l o (pos k l) ho (by show 1024 * k.val + l.val = _; omega)]

/-- The result block written at a last stretch, entry by entry, is the accumulator's entry. -/
theorem result_value (c : Dev nD) (t : Fin cfg0.N) (h1 : t.val % 4 = 3) (j : S1024x1024.Idx)
    (r : Fin 16384) (o : Fin 4096) (hr : r.val = t.val / 16 * 1024 + (j 0).val) (ho : o.val = t.val / 4 % 4 * 1024 + (j 1).val) :
    (outsAt0 m c t.val t.isLt).1 j = accAt (lhsArr m c) (rhsArr m c) (biasArr m c) r o := by
  obtain ⟨p, q, rfl⟩ : ∃ (p q : Fin 1024), j = ix2 p q := ⟨j 0, j 1, eq_ix2 j⟩
  have hr' : r.val = t.val / 16 * 1024 + p.val := hr
  have ho' : o.val = t.val / 4 % 4 * 1024 + q.val := ho
  have e1 : (prev t).val = t.val - 1 := rfl
  have e2 : (prev (prev t)).val = t.val - 1 - 1 := rfl
  have e3 : (prev (prev (prev t))).val = t.val - 1 - 1 - 1 := rfl
  rw [result_four m c t h1, result_apply, total_apply, total_apply, total_apply, total_apply, zero_apply]
  rw [stretch_sum m c (prev (prev (prev t))) 0 (by show _ = 0; omega) p q r o (by omega) (by omega),
    stretch_sum m c (prev (prev t)) 1 (by show _ = 1; omega) p q r o (by omega) (by omega),
    stretch_sum m c (prev t) 2 (by show _ = 2; omega) p q r o (by omega) (by omega),
    stretch_sum m c t 3 (by show _ = 3; omega) p q r o hr' ho',
    biasBlk_apply m c t q o ho']
  rfl

/-- What a last stretch writes back is its block of the accumulator array. -/
theorem flushed_eq (c : Dev nD) (t : Fin cfg0.N) (hf : (cfg0.win 3).flush t = true) :
    (dats m 0 c).flushed 3 t
      = ((cfg0.win 3).blk t).view.read (Elt Ideal) (acc (lhsArr m c) (rhsArr m c) (biasArr m c)) := by
  have h1 : t.val % 4 = 3 := (flush0_3 t).mp hf
  have hN : t.val < 256 := lt_of_lt_of_eq t.isLt (show cfg0.N = 256 from N_0)
  obtain ⟨-, -, -, -, -, -, e6, e7⟩ := idx_facts t
  show (cfg0.win 3).cut (grid0.coords t) ((dats m 0 c).after 3 t) = _
  rw [after0_3]
  funext j
  have hj0 : (j 0).val < 1024 := (j 0).isLt
  have hj1 : (j 1).val < 1024 := (j 1).isLt
  rw [View.read_apply]
  show (outsAt0 m c t.val t.isLt).1 ((cfg0.win 3).xinj (grid0.coords t) j) = _
  have hx : (cfg0.win 3).xinj (grid0.coords t) j = ix2 (⟨(j 0).val, hj0⟩ : Fin 1024) (⟨(j 1).val, hj1⟩ : Fin 1024) :=
    funext fun a => Fin.ext (by match a with | ⟨0, _⟩ => rfl | ⟨1, _⟩ => rfl)
  have hemb : ((cfg0.win 3).blk t).view.emb j
      = ix2 (⟨t.val / 16 * 1024 + (j 0).val, by omega⟩ : Fin 16384) (⟨t.val / 4 % 4 * 1024 + (j 1).val, by omega⟩ : Fin 4096) := by
    funext a
    apply Fin.ext
    match a with
    | ⟨0, _⟩ => show win0_3.index t (0 : Fin 2) * 1024 + 1 * (j 0).val = t.val / 16 * 1024 + (j 0).val; omega
    | ⟨1, _⟩ => show win0_3.index t (1 : Fin 2) * 1024 + 1 * (j 1).val = t.val / 4 % 4 * 1024 + (j 1).val; omega
  rw [hx, hemb]
  exact result_value m c t h1 (ix2 ⟨(j 0).val, hj0⟩ ⟨(j 1).val, hj1⟩) _ _ rfl rfl

/-- An entry of the output array lies in point `t`'s block iff each coordinate lies in the block's range. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v34).slice (win0_3.rect t)).set ↔ _
  rw [View.set_slice_whole, Rect.mem_set_unit]
  exact Iff.rfl

/-- Every entry of the output array is written back by the last stretch of its (row block, column block) pair. -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 256 := N_0
  have ht : (i 0).val / 1024 * 16 + (i 1).val / 1024 * 4 + 3 < cfg0.N := by omega
  obtain ⟨-, -, -, -, -, -, e6, e7⟩ := idx_facts ⟨_, ht⟩
  refine ⟨⟨_, ht⟩, (flush0_3 _).mpr (by show ((i 0).val / 1024 * 16 + (i 1).val / 1024 * 4 + 3) % 4 = 3; omega), ?_⟩
  rw [mem_blk]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e6]
    show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_3.index ⟨_, ht⟩ (1 : Fin 2) * 1024 ≤ (i 1).val ∧ (i 1).val < win0_3.index ⟨_, ht⟩ (1 : Fin 2) * 1024 + 1024
    rw [e7]
    show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- So the output array ends holding the accumulator. -/
theorem final (c : Dev nD) :
    (dats m 0 c).arrAt 3 cfg0.N = acc (lhsArr m c) (rhsArr m c) (biasArr m c) :=
  (dats m 0 c).arrAt_eq_of_cover 3 (acc (lhsArr m c) (rhsArr m c) (biasArr m c)) (fun t hf => flushed_eq m c t hf) cover

end ideal

end Cert.KernelIdeal.Blocks

end
-- ==== Proof.RefSide.lean ====
/-
  The reference, read at the ideal instance: its result is the shared requantization of its accumulator, and its
  accumulator at row `r`, column `o` is the inner product over all 4096 positions of row `r` of the shifted quantized
  activations with row `o` of the quantized weights, plus the requantized bias of column `o`.
-/
import proofs.«156082_j16578573762822_1_alg».proof.Proof.Gen.ReferenceIdeal.Read
import proofs.«156082_j16578573762822_1_alg».proof.Proof.Requant

noncomputable section

open scoped BigOperators
open Idealize.ShloMosaic Idealize.ShloMosaic.ValueIdx

namespace Cert.RefSide

open Cert.ReferenceIdeal Cert.ReferenceIdeal.Read

variable {F : FTy → Type} [FloatOps F]

/-- The reference's result is the requantization of its accumulator, with its own weight scales and activation scale. -/
theorem result_eq_tail (x0 : (⟨S16384x4096, .f32⟩ : BufTy).Contents (Elt F)) (x1 : (⟨S4096x4096, .f32⟩ : BufTy).Contents (Elt F))
    (x2 : (⟨S4096, .f32⟩ : BufTy).Contents (Elt F)) :
    val_main_v58 (F := F) x0 x1 x2 = Cert.Requant.tail (val_main_v34 (F := F) x0 x1 x2) (val_main_v3 (F := F) x1) (val_main_v14 (F := F) x0) := by
  rfl

/-- The reference's accumulator at an entry: the inner product over all 4096 positions, plus the requantized bias. -/
theorem acc_apply (x0 : (⟨S16384x4096, .f32⟩ : BufTy).Contents (Elt Ideal)) (x1 : (⟨S4096x4096, .f32⟩ : BufTy).Contents (Elt Ideal))
    (x2 : (⟨S4096, .f32⟩ : BufTy).Contents (Elt Ideal)) (i : S16384x4096.Idx) :
    val_main_v34 (F := Ideal) x0 x1 x2 i
      = (∑ k : Fin 4096, (val_main_v25 (F := Ideal) x0) (lidx_main_v26 i k) * (val_main_v8 (F := Ideal) x1) (ridx_main_v26 i k))
        + val_main_v32 (F := Ideal) x0 x1 x2 (idx_main_v33 i) := by
  rw [val_main_v34_apply, val_main_v26_apply, val_main_v33_apply]
  rfl

end Cert.RefSide

end
-- ==== Proof.Bridge.lean ====
/-
  The one place where the two programs differ: the kernel's accumulator is the running total of four stretch sums
  started at zero, plus the bias; the reference's is one inner product over all 4096 positions, plus the bias. Over
  the extended reals addition is associative and commutative with neutral element zero, so the two are equal entry by
  entry, whatever the operands are (no finiteness is used).
-/
import proofs.«156082_j16578573762822_1_alg».proof.Proof.KernelBlocks
import proofs.«156082_j16578573762822_1_alg».proof.Proof.RefSide

noncomputable section

open scoped BigOperators
open Idealize.ShloMosaic Idealize.ShloMosaic.ValueIdx

namespace Cert.Bridge

open Cert.ReferenceIdeal.Read Cert.KernelIdeal.Blocks Cert.BlockedDot

/-- The kernel's accumulator of the reference's three intermediate arrays is the reference's accumulator. -/
theorem acc_eq_ref (x0 : (⟨Cert.ReferenceIdeal.S16384x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    acc (val_main_v25 (F := Ideal) x0) (val_main_v8 (F := Ideal) x1) (val_main_v32 (F := Ideal) x0 x1 x2)
      = val_main_v34 (F := Ideal) x0 x1 x2 := by
  funext i
  rw [Cert.RefSide.acc_apply]
  have hl : ∀ k : Fin 4096, (ix2 (⟨(i 0).val, (i 0).isLt⟩ : Fin 16384) k : Cert.ReferenceIdeal.S16384x4096.Idx) = lidx_main_v26 i k :=
    fun k => funext fun a => Fin.ext (by match a with | ⟨0, _⟩ => rfl | ⟨1, _⟩ => rfl)
  have hr : ∀ k : Fin 4096, (ix2 (⟨(i 1).val, (i 1).isLt⟩ : Fin 4096) k : Cert.ReferenceIdeal.S4096x4096.Idx) = ridx_main_v26 i k :=
    fun k => funext fun a => Fin.ext (by match a with | ⟨0, _⟩ => rfl | ⟨1, _⟩ => rfl)
  have hb : (ix2 (0 : Fin 1) (⟨(i 1).val, (i 1).isLt⟩ : Fin 4096) : Cert.ReferenceIdeal.S1x4096.Idx) = idx_main_v33 i :=
    funext fun a => Fin.ext (by match a with | ⟨0, _⟩ => rfl | ⟨1, _⟩ => rfl)
  have hsum := (running_total (M := EReal) fun x : Fin 4096 =>
      val_main_v25 (F := Ideal) x0 (ix2 (⟨(i 0).val, (i 0).isLt⟩ : Fin 16384) x)
        * val_main_v8 (F := Ideal) x1 (ix2 (⟨(i 1).val, (i 1).isLt⟩ : Fin 4096) x)).trans
    (Finset.sum_congr rfl fun k _ => by rw [hl k, hr k])
  exact congrArg₂ (· + ·) hsum (congrArg (val_main_v32 (F := Ideal) x0 x1 x2) hb)

end Cert.Bridge

end
-- ==== Proof.KernelResult.lean ====
/-
  The kernel's result as a function of its three inputs, over the extended reals: the lines after the blocked product
  requantize its output array; the output array is the accumulator of the three operand arrays; the operand arrays,
  the weight scales and the activation scale are the reference's functions of the inputs; and the accumulator is the
  reference's accumulator. So the kernel's result is the reference's result term.
-/
import proofs.«156082_j16578573762822_1_alg».proof.Proof.KernelHostHead
import proofs.«156082_j16578573762822_1_alg».proof.Proof.KernelHostTail
import proofs.«156082_j16578573762822_1_alg».proof.Proof.KernelBlocks
import proofs.«156082_j16578573762822_1_alg».proof.Proof.Bridge

noncomputable section

open Idealize.ShloMosaic Idealize.ShloMosaic.TcCoe Idealize.SL.Sem

namespace Cert.KernelIdeal.Result

open Cert.KernelIdeal Cert.KernelIdeal.Gen Cert.KernelIdeal.Blocks Cert.ReferenceIdeal.Read

variable (m : (ℓ : Loc nD τ sig) → Buf (Elt Ideal) ℓ) (ρ : Dev nD → PrngReg)

/-- What the lines after the product leave in the result buffer is the reference's result term of the inputs. -/
theorem value (c : Dev nD) :
    Pipeline.afterTail₀ cfgs (dats m) 0 (V0 m) [hostOps1, hostOps1_1, hostOps1_2, hostOps1_3, hostOps1_4, hostOps1_5, hostOps1_6] c main_v58
      = val_main_v58 (F := Ideal) (m ((c : Thread nD τ).loc main_arg0)) (m ((c : Thread nD τ).loc main_arg1)) (m ((c : Thread nD τ).loc main_arg2)) := by
  have e1 : lhsArr m c = val_main_v25 (F := Ideal) (m ((c : Thread nD τ).loc main_arg0)) := Host.head_lhs m c
  have e2 : rhsArr m c = val_main_v8 (F := Ideal) (m ((c : Thread nD τ).loc main_arg1)) := Host.head_rhs m c
  have e3 : biasArr m c = val_main_v32 (F := Ideal) (m ((c : Thread nD τ).loc main_arg0)) (m ((c : Thread nD τ).loc main_arg1)) (m ((c : Thread nD τ).loc main_arg2)) := Host.head_bias m c
  rw [Host.tail_eq m c, Blocks.final m c, e1, e2, e3, Host.head_wscale m c, Host.head_ascale m c, Cert.Bridge.acc_eq_ref]
  exact (Cert.RefSide.result_eq_tail _ _ _).symm

/-- The kernel's run, read: the result buffer at the reference's result term, the inputs unchanged. -/
theorem run : θ_run defs (onTc (τ := τ) (main (F := Ideal))) ⟨m, fun _ => 0, ρ⟩ fun r => ∀ c : Dev nD,
      r.2.mem ((c.tc : Thread nD τ).loc main_v58)
        = val_main_v58 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v58 (Pipeline.mem_restRefs_of main_v58 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  An int8-simulated linear layer: the weights are quantized per output channel, the activations per tensor, the
  quantized activations (zero point taken off) are multiplied with the quantized weights along the shared axis of
  length 4096, the requantized bias is added, and the accumulator is requantized per tensor and rescaled. The kernel
  computes the product block by block — 1024×1024 output blocks, the shared axis in four stretches of 1024 whose
  partial sums are added, in order, to a running total started at zero, the bias added after the fourth — and the
  reference by one contraction over all 4096 positions followed by the bias. Everything before the product and
  everything after it is, operation by operation, the same in both programs.

  Over the extended reals the change of format in front of the kernel's product is the identity, each block product
  into zeros is a plain sum of products, and addition is associative and commutative with neutral element zero, so
  the two accumulators agree entry by entry for ANY inputs: the finiteness of the inputs is not used. The shared
  requantization then maps equal accumulators (and equal scales) to equal results.

  The three frames: the kernel's two are the generated frame certificates; the reference's is its generated run with
  the result dropped. The ideal pass rewrote nothing, so the idealization claim is trivial.
-/
import proofs.«156082_j16578573762822_1_alg».proof.Defs
import proofs.«156082_j16578573762822_1_alg».proof.Proof.Gen.Kernel
import proofs.«156082_j16578573762822_1_alg».proof.Proof.Gen.Kernel.Skeleton
import proofs.«156082_j16578573762822_1_alg».proof.Proof.Gen.Kernel.Launch
import proofs.«156082_j16578573762822_1_alg».proof.Proof.Gen.Kernel.Points
import proofs.«156082_j16578573762822_1_alg».proof.Proof.Gen.Kernel.Frame
import proofs.«156082_j16578573762822_1_alg».proof.Proof.Gen.KernelIdeal
import proofs.«156082_j16578573762822_1_alg».proof.Proof.Gen.KernelIdeal.Skeleton
import proofs.«156082_j16578573762822_1_alg».proof.Proof.Gen.KernelIdeal.Launch
import proofs.«156082_j16578573762822_1_alg».proof.Proof.Gen.KernelIdeal.Points
import proofs.«156082_j16578573762822_1_alg».proof.Proof.Gen.KernelIdeal.Frame
import proofs.«156082_j16578573762822_1_alg».proof.Proof.Gen.ReferenceIdeal
import proofs.«156082_j16578573762822_1_alg».proof.Proof.Gen.ReferenceIdeal.Run
import proofs.«156082_j16578573762822_1_alg».proof.Proof.Gen.ReferenceIdeal.Read
import proofs.«156082_j16578573762822_1_alg».proof.Proof.Gen.Pre_finite_inputs
import proofs.«156082_j16578573762822_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at ONE term of the inputs: the reference's result term, which the
    kernel's result equals by the re-association of the blocked sum. -/
theorem algebraic : Cert.algebraic_KernelIdeal_ReferenceIdeal := by
  intro m ρ m' ρ' _ hagree
  refine ⟨fun c => Cert.ReferenceIdeal.Read.val_main_v58 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v58_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
